-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S2048x2 : Shape := ⟨2, ![2048, 2]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S2048x2 : S_.BroadcastsInDim S2048x2 (![] : Fin 0 → Fin S2048x2.rank)
  reducesTo_S2048x2_S_d0_1 : S2048x2.ReducesTo [0, 1] S_

variable [Facts]

def fn {F : FTy → Type} [FloatOps F] (main_arg0 : FVec F S16x2048x256 .f32) (main_arg1 : FVec F S2048x2 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S2048x2 .f32 := Host.absf main_arg1
  let main_cst_0 : FVec F S_ .f32 := constant S_ .f32 0x7F800000#32
  let main_v5 : FVec F S2048x2 .f32 := broadcastInDim S2048x2 ![] bcast_S_S2048x2 main_cst_0
  let main_v6 : IVec S2048x2 1 := cmpf .olt main_v4 main_v5
  let main_c_1 : IVec S_ 1 := constantI S_ 1 1#1
  let main_v7 : IVec S_ 1 := (fun x v => Host.reduce IntOp.andi x v reducesTo_S2048x2_S_d0_1 h_S_) main_v6 main_c_1
  let main_v8 : IVec S_ 1 := andi main_v3 main_v7
  main_v8
-- ==== Kernel.lean ====
abbrev S16x2048x256 : Shape := ⟨3, ![16, 2048, 256]⟩
abbrev S2048x2 : Shape := ⟨2, ![2048, 2]⟩
abbrev S8x256x2 : Shape := ⟨3, ![8, 256, 2]⟩
abbrev S8x256x1 : Shape := ⟨3, ![8, 256, 1]⟩
abbrev S8x256 : Shape := ⟨2, ![8, 256]⟩
abbrev S16x2048x2048 : Shape := ⟨3, ![16, 2048, 2048]⟩
abbrev S1x256x256 : Shape := ⟨3, ![1, 256, 256]⟩
abbrev S1x256x2048 : Shape := ⟨3, ![1, 256, 2048]⟩
abbrev S256x256 : Shape := ⟨2, ![256, 256]⟩
abbrev S256x1x256 : Shape := ⟨3, ![256, 1, 256]⟩
abbrev S1x8x256 : Shape := ⟨3, ![1, 8, 256]⟩
abbrev S256x8x256 : Shape := ⟨3, ![256, 8, 256]⟩
abbrev S256x2048 : Shape := ⟨2, ![256, 2048]⟩

abbrev nBuf : Space → Nat
  | .hbm => 8
  | .vmem => 6
  | .smem => 0
  | _ => 0

abbrev bufTy : (tb : Table) → Fin (tcTables nBuf tb) → BufTy
  | .hbm, ⟨0, _⟩ => ⟨S16x2048x256, .f32⟩
  | .hbm, ⟨1, _⟩ => ⟨S2048x2, .f32⟩
  | .hbm, ⟨2, _⟩ => ⟨S8x256x2, .f32⟩
  | .hbm, ⟨3, _⟩ => ⟨S8x256x1, .f32⟩
  | .hbm, ⟨4, _⟩ => ⟨S8x256, .f32⟩
  | .hbm, ⟨5, _⟩ => ⟨S8x256x1, .f32⟩
  | .hbm, ⟨6, _⟩ => ⟨S8x256, .f32⟩
  | .hbm, ⟨7, _⟩ => ⟨S16x2048x2048, .f32⟩
  | .local _ .vmem, ⟨0, _⟩ => ⟨S1x256x256, .f32⟩
  | .local _ .vmem, ⟨1, _⟩ => ⟨S1x256x256, .f32⟩
  | .local _ .vmem, ⟨2, _⟩ => ⟨S8x256, .f32⟩
  | .local _ .vmem, ⟨3, _⟩ => ⟨S8x256, .f32⟩
  | .local _ .vmem, ⟨4, _⟩ => ⟨S1x256x2048, .f32⟩
  | .local _ .vmem, ⟨5, _⟩ => ⟨S1x256x2048, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2048x2_S8x256x2 : S2048x2.ShapeCasts S8x256x2
  slices_S8x256x2_S8x256x1_0_0_0 : S8x256x2.Slices ![0, 0, 0] S8x256x1
  shapeCasts_S8x256x1_S8x256 : S8x256x1.ShapeCasts S8x256
  slices_S8x256x2_S8x256x1_0_0_1 : S8x256x2.Slices ![0, 0, 1] S8x256x1
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S8x256_S8x256_0_0 : ∀ a, (![0, 0] : Fin 2 → Nat) a + S8x256.size a ≤ S8x256.size a
  h_S8x256 : 0 < S8x256.numel
  shapeCasts_S8x256_S8x256 : S8x256.ShapeCasts S8x256
  shapeCasts_S256x256_S256x1x256 : S256x256.ShapeCasts S256x1x256
  shapeCasts_S8x256_S1x8x256 : S8x256.ShapeCasts S1x8x256
  broadcasts_S256x1x256_S256x8x256 : S256x1x256.Broadcasts S256x8x256
  broadcasts_S1x8x256_S256x8x256 : S1x8x256.Broadcasts S256x8x256
  shapeCasts_S256x8x256_S256x2048 : S256x8x256.ShapeCasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S16x2048x256.size a
  hwx0_0 : ∀ i : grid0.Coords, EltTy.bits .f32 = 32 ∨ (Rect.block (s := S16x2048x256) S1x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S8x256.size a
  hwx0_1 : ∀ i : grid0.Coords, EltTy.bits .f32 = 32 ∨ (Rect.block (s := S8x256) S8x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S8x256.size a
  hwx0_2 : ∀ i : grid0.Coords, EltTy.bits .f32 = 32 ∨ (Rect.block (s := S8x256) S8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S16x2048x2048.size a
  hwx0_3 : ∀ i : grid0.Coords, EltTy.bits .f32 = 32 ∨ (Rect.block (s := S16x2048x2048) S1x256x2048.size (cc0_transform_3 i) (hinb0_3 i)).WholeWords (EltTy.packing .f32)

variable [Facts₀]

abbrev win0_0 : Pipeline.Window sig grid0 :=
  Pipeline.Window.ofSpec (Memref.whole main_arg0) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x256 : Shape := ⟨3, ![16, 2048, 256]⟩
abbrev S2048x2 : Shape := ⟨2, ![2048, 2]⟩
abbrev S8x256x2 : Shape := ⟨3, ![8, 256, 2]⟩
abbrev S8x256x1 : Shape := ⟨3, ![8, 256, 1]⟩
abbrev S8x256 : Shape := ⟨2, ![8, 256]⟩
abbrev S16x2048x1x256 : Shape := ⟨4, ![16, 2048, 1, 256]⟩
abbrev S1x1x8x256 : Shape := ⟨4, ![1, 1, 8, 256]⟩
abbrev S16x2048x8x256 : Shape := ⟨4, ![16, 2048, 8, 256]⟩
abbrev S16x2048x2048 : Shape := ⟨3, ![16, 2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S2048x2, .f32⟩
  | .hbm, ⟨2, _⟩ => ⟨S8x256x2, .f32⟩
  | .hbm, ⟨3, _⟩ => ⟨S8x256x1, .f32⟩
  | .hbm, ⟨4, _⟩ => ⟨S8x256, .f32⟩
  | .hbm, ⟨5, _⟩ => ⟨S8x256x1, .f32⟩
  | .hbm, ⟨6, _⟩ => ⟨S8x256, .f32⟩
  | .hbm, ⟨7, _⟩ => ⟨S16x2048x1x256, .f32⟩
  | .hbm, ⟨8, _⟩ => ⟨S1x1x8x256, .f32⟩
  | .hbm, ⟨9, _⟩ => ⟨S16x2048x8x256, .f32⟩
  | .hbm, ⟨10, _⟩ => ⟨S16x2048x8x256, .f32⟩
  | .hbm, ⟨11, _⟩ => ⟨S16x2048x8x256, .f32⟩
  | .hbm, ⟨12, _⟩ => ⟨S16x2048x8x256, .f32⟩
  | .hbm, ⟨13, _⟩ => ⟨S16x2048x8x256, .f32⟩
  | .hbm, ⟨14, _⟩ => ⟨S1x1x8x256, .f32⟩
  | .hbm, ⟨15, _⟩ => ⟨S16x2048x8x256, .f32⟩
  | .hbm, ⟨16, _⟩ => ⟨S16x2048x8x256, .f32⟩
  | .hbm, ⟨17, _⟩ => ⟨S16x2048x8x256, .f32⟩
  | .hbm, ⟨18, _⟩ => ⟨S16x2048x2048, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩

abbrev nD : Nat := 1
abbrev τ : Topo := Topo.v7x

variable {F : FTy → Type} [FloatOps F]

class Facts₀ : Prop where
  shapeCasts_S2048x2_S8x256x2 : S2048x2.ShapeCasts S8x256x2
  slices_S8x256x2_S8x256x1_0_0_0 : S8x256x2.Slices ![0, 0, 0] S8x256x1
  shapeCasts_S8x256x1_S8x256 : S8x256x1.ShapeCasts S8x256
  slices_S8x256x2_S8x256x1_0_0_1 : S8x256x2.Slices ![0, 0, 1] S8x256x1
  bcast_S16x2048x256_S16x2048x1x256_0_1_3 : S16x2048x256.BroadcastsInDim S16x2048x1x256 (![0, 1, 3] : Fin 3 → Fin S16x2048x1x256.rank)
  bcast_S8x256_S1x1x8x256_2_3 : S8x256.BroadcastsInDim S1x1x8x256 (![2, 3] : Fin 2 → Fin S1x1x8x256.rank)
  bcast_S16x2048x1x256_S16x2048x8x256_0_1_2_3 : S16x2048x1x256.BroadcastsInDim S16x2048x8x256 (![0, 1, 2, 3] : Fin 4 → Fin S16x2048x8x256.rank)
  bcast_S1x1x8x256_S16x2048x8x256_0_1_2_3 : S1x1x8x256.BroadcastsInDim S16x2048x8x256 (![0, 1, 2, 3] : Fin 4 → Fin S16x2048x8x256.rank)
  shapeCasts_S16x2048x8x256_S16x2048x2048 : S16x2048x8x256.ShapeCasts S16x2048x2048

variable [Facts₀]

class Facts : Prop extends Facts₀ where

variable [Facts]
-- ==== Proof.Membership.lean ====
/-
  The Gaussian fuzzy membership as ONE function of the two argument arrays, index by index.

  With `x : [16, 2048, 256]` (batch, position, feature) and `p : [2048, 2]` (row `r = d·256 + f` holds the centre
  `μ` in column 0 and the width `σ` in column 1 of degree `d`, feature `f`), the result `[16, 2048, 2048]` at
  `(b, s, r)` is

      exp ( (0 − (x[b, s, r mod 256] − p[r, 0])²) / p[r, 1] ).

  The last axis of the result is the pair (degree, feature) flattened row-major, so its coordinate `r` IS the
  parameter row, and the feature it reads of `x` is `r mod 256`.

  Two facts join the two programs to this function. On the extended reals `0 − y = −y` for EVERY `y` (the infinities
  included), so the subtraction from a zero splat and the host's negation are one function; the quotient and the
  exponential are the same functions on both sides. And a parameter column — the array `[2048, 2]` regrouped as
  `[8, 256, 2]`, one unit slice along the last axis, the unit axis dropped — read at (degree, feature) is the array
  at row `degree·256 + feature` of that column.
-/
import Idealize.ShloMosaic.Lib.Pipeline.Value
import Idealize.ShloMosaic.Lib.ValueIdx
import Idealize.ShloMosaic.PureOps.Ideal.Laws

noncomputable section

namespace Cert.Membership

open Idealize.ShloMosaic

/-- The shapes of the input `x`, of the parameter array, of the result, and of a parameter column in its three stages. -/
abbrev SX : Shape := ⟨3, ![16, 2048, 256]⟩
abbrev SP : Shape := ⟨2, ![2048, 2]⟩
abbrev SO : Shape := ⟨3, ![16, 2048, 2048]⟩
abbrev SP3 : Shape := ⟨3, ![8, 256, 2]⟩
abbrev SC3 : Shape := ⟨3, ![8, 256, 1]⟩
abbrev SC : Shape := ⟨2, ![8, 256]⟩

/-- The entry of `x` that result index `(b, s, r)` depends on: `(b, s, r mod 256)`. -/
abbrev atX (i : SO.Idx) : SX.Idx := fun a => match a with
  | ⟨0, _⟩ => ⟨(i 0).val, (i 0).isLt⟩
  | ⟨1, _⟩ => ⟨(i 1).val, (i 1).isLt⟩
  | ⟨2, _⟩ => ⟨(i 2).val % 256, Nat.mod_lt _ (by decide)⟩

/-- The parameter entry of column `k` that result index `(b, s, r)` depends on: `(r, k)`. -/
abbrev atParam (k : Fin 2) (i : SO.Idx) : SP.Idx := fun a => match a with
  | ⟨0, _⟩ => ⟨(i 2).val, (i 2).isLt⟩
  | ⟨1, _⟩ => k

variable {F : FTy → Type} [FloatOps F]

/-- The membership value at a result index, in the operations of the kernel's body: the squared distance to the centre,
    subtracted from zero, over the width, exponentiated. -/
def memb (x : SX.Idx → Elt F .f32) (p : SP.Idx → Elt F .f32) : SO.Idx → Elt F .f32 := fun i =>
  FloatOps.exp (FloatOps.divf (FloatOps.subf (Scalar.ofBits .f32 0x00000000#32)
    (FloatOps.mulf (FloatOps.subf (x (atX i)) (p (atParam 0 i))) (FloatOps.subf (x (atX i)) (p (atParam 0 i)))))
    (p (atParam 1 i)))

/-- On the extended reals the host's spelling — negate, divide, exponentiate — of a value `y` over `s` is the kernel's, which
    subtracts `y` from the zero word: `0 − y = −y` holds at the infinities too, and quotient and exponential are shared. -/
theorem exp_neg_div (y s : Ideal .f32) :
    FloatOps.hostUnary .exp (FloatOps.hostDivf (FloatOps.hostNegf y) s)
      = FloatOps.exp (FloatOps.divf (FloatOps.subf (Scalar.ofBits (F := Ideal) .f32 0x00000000#32) y) s) := by
  show Ideal.exp (Ideal.div (-y) s) = Ideal.exp (Ideal.div (Ideal.ofBits .f32 0x00000000#32 - y) s)
  rw [Ideal.ofBits_zero_f32, zero_sub]

/-- A parameter column read at (degree, feature): regroup `[2048, 2]` as `[8, 256, 2]`, take the unit slice at offset `k` of
    the last axis, drop the unit axis; the entry at `(d, f)` is the array's at row `d·256 + f`, column `k` (the row-major
    positions agree at every step). -/
theorem column_apply {α : Type} (p : SP.Idx → α) (off : Fin 3 → Nat) (k : Fin 2)
    (h0 : off 0 = 0) (h1 : off 1 = 0) (h2 : off 2 = k.val)
    (c1 : SP.ShapeCasts SP3) (c2 : SP3.Slices off SC3) (c3 : SC3.ShapeCasts SC) (j : SC.Idx) (r : SP.Idx)
    (hr0 : (r 0).val = (j 0).val * 256 + (j 1).val) (hr1 : (r 1).val = k.val) :
    shapeCast SC (extractStridedSlice SC3 off (shapeCast SP3 p c1) c2) c3 j = p r := by
  have hj0 : (j 0).val < 8 := (j 0).isLt
  have hj1 : (j 1).val < 256 := (j 1).isLt
  have hk : k.val < 2 := k.isLt
  refine (shapeCast_apply _ c3 j (fun a => match a with
    | ⟨0, _⟩ => ⟨(j 0).val, hj0⟩ | ⟨1, _⟩ => ⟨(j 1).val, hj1⟩ | ⟨2, _⟩ => ⟨0, Nat.one_pos⟩ : SC3.Idx) (by
      rw [Shape.rowMajor_val_three, Shape.rowMajor_val_two]
      show ((j 0).val * 256 + (j 1).val) * 1 + 0 = (j 0).val * 256 + (j 1).val; omega)).trans ?_
  refine (extractStridedSlice_apply off _ c2 _ (fun a => match a with
    | ⟨0, _⟩ => ⟨(j 0).val, hj0⟩ | ⟨1, _⟩ => ⟨(j 1).val, hj1⟩ | ⟨2, _⟩ => ⟨k.val, hk⟩ : SP3.Idx) (fun a => match a with
    | ⟨0, _⟩ => by show (j 0).val = off 0 + (j 0).val; omega
    | ⟨1, _⟩ => by show (j 1).val = off 1 + (j 1).val; omega
    | ⟨2, _⟩ => by show k.val = off 2 + 0; omega)).trans ?_
  exact shapeCast_apply p c1 _ r (by
    rw [Shape.rowMajor_val_two, Shape.rowMajor_val_three]
    show (r 0).val * 2 + (r 1).val = ((j 0).val * 256 + (j 1).val) * 2 + k.val; omega)

end Cert.Membership

end
-- ==== Proof.RefMembership.lean ====
/-
  The reference's result is the membership function.

  The reference broadcasts `x` to `[16, 2048, 8, 256]` along a new degree axis, broadcasts each parameter column `[8, 256]`
  over batch and position, computes `exp (−(x − μ)² / σ)` entry by entry, and flattens (degree, feature) into one axis of
  2048. Read at a result index `(b, s, r)`: the flattening sends it to `(b, s, r / 256, r mod 256)`; the broadcasts drop the
  degree for `x` and drop batch and position for a column; and a column at (degree, feature) is the parameter array at row
  `degree·256 + feature = r`. So the entry is the membership value at `(b, s, r)`, with the host's negation in place of the
  subtraction from zero — the same extended real.
-/
import proofs.«121947_j10264971838088_1_alg».proof.Proof.Gen.ReferenceIdeal.Read
import proofs.«121947_j10264971838088_1_alg».proof.Proof.Membership

noncomputable section

namespace Cert.ReferenceIdeal.RefMembership

open Cert.ReferenceIdeal Cert.ReferenceIdeal.Gen Cert.ReferenceIdeal.Read Idealize.ShloMosaic Cert.Membership

/-- Through the flattening and the two broadcasts of `x`, result index `(b, s, r)` reads `x` at `(b, s, r mod 256)`. -/
theorem x_index (i : S16x2048x2048.Idx) : idx_main_v5 (idx_main_v7 (idx_main_v16 i)) = atX i := by
  have h0 : (i 0).val < 16 := (i 0).isLt
  have h1 : (i 1).val < 2048 := (i 1).isLt
  have h2 : (i 2).val < 2048 := (i 2).isLt
  funext a; apply Fin.ext
  match a with
  | ⟨0, _⟩ => show (((i 0).val * 2048 + (i 1).val) * 2048 + (i 2).val) / 4194304 = (i 0).val; omega
  | ⟨1, _⟩ => show (((i 0).val * 2048 + (i 1).val) * 2048 + (i 2).val) / 2048 % 2048 = (i 1).val; omega
  | ⟨2, _⟩ => show (((i 0).val * 2048 + (i 1).val) * 2048 + (i 2).val) % 256 = (i 2).val % 256; omega

/-- The (degree, feature) pair under result index `(b, s, r)` is `(r / 256, r mod 256)`. -/
theorem pair_index (i : S16x2048x2048.Idx) :
    (((idx_main_v16 i) 2).val = (i 2).val / 256) ∧ (((idx_main_v16 i) 3).val = (i 2).val % 256) := by
  have h0 : (i 0).val < 16 := (i 0).isLt
  have h1 : (i 1).val < 2048 := (i 1).isLt
  have h2 : (i 2).val < 2048 := (i 2).isLt
  constructor
  · show (((i 0).val * 2048 + (i 1).val) * 2048 + (i 2).val) / 256 % 8 = (i 2).val / 256; omega
  · show (((i 0).val * 2048 + (i 1).val) * 2048 + (i 2).val) % 256 = (i 2).val % 256; omega

/-- Through the flattening, the broadcasts of the centres' column and the column's three layout steps, result index
    `(b, s, r)` reads the parameter array at `(r, 0)`. -/
theorem mu_index (i : S16x2048x2048.Idx) :
    idx_main_v0 (idx_main_v1 (idx_main_v2 (idx_main_v6 (idx_main_v8 (idx_main_v16 i))))) = atParam 0 i := by
  have h2 : (i 2).val < 2048 := (i 2).isLt
  obtain ⟨ed, ef⟩ := pair_index i
  funext a; apply Fin.ext
  match a with
  | ⟨0, _⟩ =>
    show ((((((idx_main_v16 i) 2).val * 256 + ((idx_main_v16 i) 3).val) / 256 * 256
      + (((idx_main_v16 i) 2).val * 256 + ((idx_main_v16 i) 3).val) / 1 % 256) * 2 + 0) / 2) = (i 2).val
    rw [ed, ef]; omega
  | ⟨1, _⟩ =>
    show ((((((idx_main_v16 i) 2).val * 256 + ((idx_main_v16 i) 3).val) / 256 * 256
      + (((idx_main_v16 i) 2).val * 256 + ((idx_main_v16 i) 3).val) / 1 % 256) * 2 + 0) % 2) = 0
    omega

/-- Likewise the widths' column: result index `(b, s, r)` reads the parameter array at `(r, 1)`. -/
theorem sigma_index (i : S16x2048x2048.Idx) :
    idx_main_v0 (idx_main_v3 (idx_main_v4 (idx_main_v12 (idx_main_v13 (idx_main_v16 i))))) = atParam 1 i := by
  have h2 : (i 2).val < 2048 := (i 2).isLt
  obtain ⟨ed, ef⟩ := pair_index i
  funext a; apply Fin.ext
  match a with
  | ⟨0, _⟩ =>
    show ((((((idx_main_v16 i) 2).val * 256 + ((idx_main_v16 i) 3).val) / 256 * 256
      + (((idx_main_v16 i) 2).val * 256 + ((idx_main_v16 i) 3).val) / 1 % 256) * 2 + (1 + 0)) / 2) = (i 2).val
    rw [ed, ef]; omega
  | ⟨1, _⟩ =>
    show ((((((idx_main_v16 i) 2).val * 256 + ((idx_main_v16 i) 3).val) / 256 * 256
      + (((idx_main_v16 i) 2).val * 256 + ((idx_main_v16 i) 3).val) / 1 % 256) * 2 + (1 + 0)) % 2) = 1
    omega

/-- THE REFERENCE'S RESULT, at the ideal values, is the membership function of its two arguments: each operation read at
    an index down to the arguments, the three index chains closed above, and `0 − y = −y`. -/
theorem result_eq (x : (⟨S16x2048x256, .f32⟩ : BufTy).Contents (Elt Ideal)) (p : (⟨S2048x2, .f32⟩ : BufTy).Contents (Elt Ideal)) :
    val_main_v16 (F := Ideal) x p = memb (F := Ideal) x p := by
  funext i
  rw [val_main_v16_apply, val_main_v15_apply, val_main_v14_apply, val_main_v11_apply, val_main_v10_apply, val_main_v9_apply,
    val_main_v7_apply, val_main_v5_apply, val_main_v8_apply, val_main_v6_apply, val_main_v2_apply, val_main_v1_apply,
    val_main_v0_apply, val_main_v13_apply, val_main_v12_apply, val_main_v4_apply, val_main_v3_apply, val_main_v0_apply,
    x_index, mu_index, sigma_index]
  exact exp_neg_div _ _

end Cert.ReferenceIdeal.RefMembership

end
-- ==== Proof.KernelMembership.lean ====
/-
  The kernel's result array is the membership function.

  The grid has 16 × 8 points; point `(b, s)` reads rows `256 s … 256 s + 255` of batch `b` of `x` (a block `[1, 256, 256]`)
  and BOTH parameter columns whole (`[8, 256]` each: the host splits the parameter array into centres and widths before the
  call), and writes the block `[1, 256, 2048]` of the result at the same batch and rows. Inside a block the body broadcasts
  the `x` rows along a degree axis and the columns along the row axis, computes `exp ((0 − (x − μ)²) / σ)` and flattens
  (degree, feature): block entry `(0, q, r)` reads `x` at `(0, q, r mod 256)` and the columns at `(r / 256, r mod 256)` —
  the generated value leg states exactly this (`E3`). What is added here: a column at `(r / 256, r mod 256)` is the
  parameter array at row `r`; the block's `x` entry is `x` at the result's own batch, row and `r mod 256`; so every point
  writes its block of ONE whole-array function, the membership function; the 128 blocks tile the result; hence the array ends
  holding that function of the two arguments.
-/
import proofs.«121947_j10264971838088_1_alg».proof.Proof.Gen.KernelIdeal.Value
import proofs.«121947_j10264971838088_1_alg».proof.Proof.Membership
import Idealize.ShloMosaic.Lib.StableHlo.Run

set_option maxRecDepth 16384

noncomputable section

namespace Cert.KernelIdeal.KernelMembership

open Cert.KernelIdeal Cert.KernelIdeal.Gen Cert.KernelIdeal.Value Idealize.ShloMosaic Idealize.ShloMosaic.TcCoe Idealize.SL.Sem Cert.Membership
open Idealize.ShloMosaic.Pipeline (Dat)

variable {F : FTy → Type} [FloatOps F]
variable (m : (ℓ : Loc nD τ sig) → Buf (Elt F) ℓ) (ρ : Dev nD → PrngReg)

/-! ## The two parameter columns as the call finds them -/

/-- The centres' array at the call: the parameter array regrouped, its column 0 sliced out, the unit axis dropped. -/
theorem centres_eq (c : Dev nD) :
    (V m c main_v2 : S8x256.Idx → Elt F .f32) = shapeCast S8x256 (extractStridedSlice S8x256x1 ![0, 0, 0] (shapeCast S8x256x2 (m ((c : Thread nD τ).loc main_arg1)) shapeCasts_S2048x2_S8x256x2) slices_S8x256x2_S8x256x1_0_0_0) shapeCasts_S8x256x1_S8x256 := by
  dsimp only [Gen.V, Gen.hostOps0]; after_results; rfl

/-- The widths' array at the call: the same with column 1. -/
theorem widths_eq (c : Dev nD) :
    (V m c main_v4 : S8x256.Idx → Elt F .f32) = shapeCast S8x256 (extractStridedSlice S8x256x1 ![0, 0, 1] (shapeCast S8x256x2 (m ((c : Thread nD τ).loc main_arg1)) shapeCasts_S2048x2_S8x256x2) slices_S8x256x2_S8x256x1_0_0_1) shapeCasts_S8x256x1_S8x256 := by
  dsimp only [Gen.V, Gen.hostOps0]; after_results; rfl

/-- The centre of (degree, feature) is the parameter array's entry at row `degree·256 + feature`, column 0. -/
theorem centres_apply (c : Dev nD) (j : S8x256.Idx) (r : S2048x2.Idx)
    (hr0 : (r 0).val = (j 0).val * 256 + (j 1).val) (hr1 : (r 1).val = 0) :
    (V m c main_v2 : S8x256.Idx → Elt F .f32) j = m ((c : Thread nD τ).loc main_arg1) r :=
  (congrFun (centres_eq m c) j).trans (column_apply _ _ 0 rfl rfl rfl _ _ _ j r hr0 hr1)

/-- The width of (degree, feature) is the entry at the same row, column 1. -/
theorem widths_apply (c : Dev nD) (j : S8x256.Idx) (r : S2048x2.Idx)
    (hr0 : (r 0).val = (j 0).val * 256 + (j 1).val) (hr1 : (r 1).val = 1) :
    (V m c main_v4 : S8x256.Idx → Elt F .f32) j = m ((c : Thread nD τ).loc main_arg1) r :=
  (congrFun (widths_eq m c) j).trans (column_apply _ _ 1 rfl rfl rfl _ _ _ j r hr0 hr1)

/-! ## What a grid point writes back -/

theorem zero3 : (![0, 0, 0] : Fin 3 → Nat) = fun _ => 0 := funext fun a => by fin_cases a <;> rfl
theorem zero2 : (![0, 0] : Fin 2 → Nat) = fun _ => 0 := funext fun a => by fin_cases a <;> rfl

/-- The block indices over the 128 points, decided: the `x` block sits at the result block's batch and row block, both on
    block 0 of their last axis; the two columns are always block (0, 0); the result's block indices stay inside 16 × 8. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 15 ∧ win0_3.index t (1 : Fin 3) ≤ 7 :=
  (by decide +kernel : ∀ t : Fin grid0.N, _)

/-- Every (batch, row block) is some point's result block. -/
theorem idx_onto : ∀ (q0 : Fin 16) (q1 : Fin 8), ∃ t : Fin cfg0.N, win0_3.index t = ![q0.val, q1.val, 0] :=
  (by decide +kernel : ∀ (q0 : Fin 16) (q1 : Fin 8), ∃ t : Fin grid0.N, win0_3.index t = ![q0.val, q1.val, 0])

/-- WHAT POINT `t` WRITES BACK is block `t` of the membership function of the two arguments: the generated block formula,
    with each of its three reads moved from the point's input blocks to the argument arrays at the result's own index. -/
theorem flushed_eq (c : Dev nD) (t : Fin cfg0.N) :
    (dats m 0 c).flushed 3 t = ((cfg0.win 3).blk t).view.read (Elt F)
      (memb (m ((c : Thread nD τ).loc main_arg0)) (m ((c : Thread nD τ).loc main_arg1))) := by
  rw [Value.flushed3]
  unfold out0_3
  simp only [View.ld_unit_zero (S := S1x256x256) zero3, View.ld_unit_zero (S := S8x256) zero2]
  obtain ⟨e00, e01, e02, e32, e10, e11, e20, e21, -, -⟩ := idx_facts t
  funext y
  have hy0 : (y 0).val < 1 := (y 0).isLt
  have hy1 : (y 1).val < 256 := (y 1).isLt
  have hy2 : (y 2).val < 2048 := (y 2).isLt
  show View.canon [⟨r0_2, k0_pay1 (iblk m c 0 t) (iblk m c 1 t) (iblk m c 2 t)⟩] y
    = memb (m ((c : Thread nD τ).loc main_arg0)) (m ((c : Thread nD τ).loc main_arg1)) (((cfg0.win 3).blk t).view.emb y)
  refine (canon3_eq (iblk m c 0 t) (iblk m c 1 t) (iblk m c 2 t) y).trans ?_
  -- the block's `x` entry is `x` at the result index's batch, row and feature
  have hx : V m c main_arg0 (((cfg0.win 0).blk t).view.emb (ix3_0 y))
      = m ((c : Thread nD τ).loc main_arg0) (atX (((cfg0.win 3).blk t).view.emb y)) := by
    rw [V_main_arg0]
    refine congrArg _ (funext fun a => Fin.ext ?_)
    match a with
    | ⟨0, _⟩ => show win0_0.index t (0 : Fin 3) * 1 + 1 * 0 = win0_3.index t (0 : Fin 3) * 1 + 1 * (y 0).val; omega
    | ⟨1, _⟩ => show win0_0.index t (1 : Fin 3) * 256 + 1 * (y 1).val = win0_3.index t (1 : Fin 3) * 256 + 1 * (y 1).val; omega
    | ⟨2, _⟩ => show win0_0.index t (2 : Fin 3) * 256 + 1 * ((y 2).val % 256) = (win0_3.index t (2 : Fin 3) * 2048 + 1 * (y 2).val) % 256; omega
  -- the centre and the width it reads are the parameter row of the result index's last coordinate
  have hmu : (V m c main_v2 : S8x256.Idx → Elt F .f32) (((cfg0.win 1).blk t).view.emb (ix3_1 y))
      = m ((c : Thread nD τ).loc main_arg1) (atParam 0 (((cfg0.win 3).blk t).view.emb y)) :=
    centres_apply m c _ _
      (by show win0_3.index t (2 : Fin 3) * 2048 + 1 * (y 2).val
            = (win0_1.index t (0 : Fin 2) * 8 + 1 * ((y 2).val / 256)) * 256 + (win0_1.index t (1 : Fin 2) * 256 + 1 * ((y 2).val % 256)); omega)
      rfl
  have hsg : (V m c main_v4 : S8x256.Idx → Elt F .f32) (((cfg0.win 2).blk t).view.emb (ix3_4 y))
      = m ((c : Thread nD τ).loc main_arg1) (atParam 1 (((cfg0.win 3).blk t).view.emb y)) :=
    widths_apply m c _ _
      (by show win0_3.index t (2 : Fin 3) * 2048 + 1 * (y 2).val
            = (win0_2.index t (0 : Fin 2) * 8 + 1 * ((y 2).val / 256)) * 256 + (win0_2.index t (1 : Fin 2) * 256 + 1 * ((y 2).val % 256)); omega)
      rfl
  show FloatOps.exp (FloatOps.divf (FloatOps.subf (Scalar.ofBits .f32 0x00000000#32)
      (FloatOps.mulf
        (FloatOps.subf (V m c main_arg0 (((cfg0.win 0).blk t).view.emb (ix3_0 y))) ((V m c main_v2 : S8x256.Idx → Elt F .f32) (((cfg0.win 1).blk t).view.emb (ix3_1 y))))
        (FloatOps.subf (V m c main_arg0 (((cfg0.win 0).blk t).view.emb (ix3_2 y))) ((V m c main_v2 : S8x256.Idx → Elt F .f32) (((cfg0.win 1).blk t).view.emb (ix3_3 y))))))
      ((V m c main_v4 : S8x256.Idx → Elt F .f32) (((cfg0.win 2).blk t).view.emb (ix3_4 y)))) = _
  rw [hx, hmu, hsg]
  rfl

/-! ## The blocks tile the result -/

/-- A result index lies in point `t`'s block iff each coordinate lies in the block's range on its axis. -/
theorem mem_blk (t : Fin cfg0.N) (i : S16x2048x2048.Idx) :
    i ∈ ((cfg0.win 3).blk t).view.set ↔ ∀ a : Fin 3, win0_3.index t a * S1x256x2048.size a ≤ (i a).val ∧ (i a).val < win0_3.index t a * S1x256x2048.size a + S1x256x2048.size a := by
  show i ∈ ((View.whole main_v5).slice (win0_3.rect t)).set ↔ _
  rw [View.set_slice_whole, Rect.mem_set_unit]
  exact Iff.rfl

/-- Every result index `(b, s, r)` is in the block of the point with batch `b` and row block `s / 256`, which writes back. -/
theorem covered (i : S16x2048x2048.Idx) : ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 2048 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 2048 ≤ (i 2).val ∧ (i 2).val < win0_3.index t (2 : Fin 3) * 2048 + 2048; omega

/-- THE RESULT ARRAY after the run is the membership function of the two arguments. -/
theorem final (c : Dev nD) :
    (dats m 0 c).arrAt 3 cfg0.N = memb (m ((c : Thread nD τ).loc main_arg0)) (m ((c : Thread nD τ).loc main_arg1)) :=
  (dats m 0 c).arrAt_eq_of_cover 3 _ (fun t _ => flushed_eq m c t) covered

/-- The kernel's run, read: the result at the membership function, the arguments unchanged. -/
theorem run : θ_run defs (onTc (τ := τ) (main (F := F))) ⟨m, fun _ => 0, ρ⟩ fun r => ∀ c : Dev nD,
      r.2.mem ((c : Thread nD τ).loc main_v5) = memb (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KernelMembership

end
-- ==== Proof.lean ====
/-
  Gaussian fuzzy membership, kernel against reference, over the extended reals.

  Both programs take `x : [16, 2048, 256]` and a parameter array `[2048, 2]` whose row `d·256 + f` holds the centre `μ`
  (column 0) and the width `σ` (column 1) of degree `d` and feature `f`, and return `[16, 2048, 2048]` with entry
  `(b, s, d·256 + f) = exp (−(x[b, s, f] − μ[d, f])² / σ[d, f])`. The kernel computes it block by block over a grid of
  16 × 8 points, negating by subtraction from zero; the reference computes it whole on the host with a negation.

  * The three frames: the two kernel programs' are the generated frame proofs; the reference's is its generated run with
    the result dropped.
  * `preserves`: the idealization rewrote nothing, so there is nothing to state.
  * `algebraic`: both result arrays equal ONE function of the arguments, `Cert.Membership.memb` (Proof/Membership.lean) —
    the kernel's by Proof/KernelMembership.lean (each point writes its block of that function and the blocks tile the
    result), the reference's by Proof/RefMembership.lean (each host operation read at an index); the only law used is
    `0 − y = −y`, true of every extended real, so the precondition is never opened.
-/
import proofs.«121947_j10264971838088_1_alg».proof.Defs
import proofs.«121947_j10264971838088_1_alg».proof.Proof.Gen.Kernel
import proofs.«121947_j10264971838088_1_alg».proof.Proof.Gen.Kernel.Skeleton
import proofs.«121947_j10264971838088_1_alg».proof.Proof.Gen.Kernel.Launch
import proofs.«121947_j10264971838088_1_alg».proof.Proof.Gen.Kernel.Points
import proofs.«121947_j10264971838088_1_alg».proof.Proof.Gen.Kernel.Frame
import proofs.«121947_j10264971838088_1_alg».proof.Proof.Gen.KernelIdeal
import proofs.«121947_j10264971838088_1_alg».proof.Proof.Gen.KernelIdeal.Skeleton
import proofs.«121947_j10264971838088_1_alg».proof.Proof.Gen.KernelIdeal.Launch
import proofs.«121947_j10264971838088_1_alg».proof.Proof.Gen.KernelIdeal.Points
import proofs.«121947_j10264971838088_1_alg».proof.Proof.Gen.KernelIdeal.Frame
import proofs.«121947_j10264971838088_1_alg».proof.Proof.Gen.ReferenceIdeal
import proofs.«121947_j10264971838088_1_alg».proof.Proof.Gen.Pre_finite_inputs
import proofs.«121947_j10264971838088_1_alg».proof.Proof.Gen.KernelIdeal.Value
import proofs.«121947_j10264971838088_1_alg».proof.Proof.Gen.ReferenceIdeal.Run
import proofs.«121947_j10264971838088_1_alg».proof.Proof.Gen.ReferenceIdeal.Read
import proofs.«121947_j10264971838088_1_alg».proof.Proof.Membership
import proofs.«121947_j10264971838088_1_alg».proof.Proof.RefMembership
import proofs.«121947_j10264971838088_1_alg».proof.Proof.KernelMembership
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's run ends with its arguments unchanged: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x` and on the parameter array, both programs end with the membership function of those
    two arrays in their result. -/
theorem algebraic : Cert.algebraic_KernelIdeal_ReferenceIdeal := by
  intro m ρ m' ρ' _ hagree
  refine ⟨fun c => Cert.Membership.memb (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelMembership.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefMembership.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
